-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x16 : Shape := ⟨3, ![8, 2048, 16]⟩
abbrev S8x16x2048 : Shape := ⟨3, ![8, 16, 2048]⟩
abbrev S2048x2048 : Shape := ⟨2, ![2048, 2048]⟩
abbrev S2048 : Shape := ⟨1, ![2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x16 : S_.BroadcastsInDim S8x2048x16 (![] : Fin 0 → Fin S8x2048x16.rank)
  reducesTo_S8x2048x16_S_d0_1_2 : S8x2048x16.ReducesTo [0, 1, 2] S_
  bcast_S_S8x16x2048 : S_.BroadcastsInDim S8x16x2048 (![] : Fin 0 → Fin S8x16x2048.rank)
  reducesTo_S8x16x2048_S_d0_1_2 : S8x16x2048.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8x2048x2048 .f32) (main_arg1 : FVec F S8x2048x16 .f32) (main_arg2 : FVec F S8x16x2048 .f32) (main_arg3 : FVec F S2048x2048 .f32) (main_arg4 : FVec F S2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x16 .f32 := Host.absf main_arg1
  let main_cst_0 : FVec F S_ .f32 := constant S_ .f32 0x7F800000#32
  let main_v5 : FVec F S8x2048x16 .f32 := broadcastInDim S8x2048x16 ![] bcast_S_S8x2048x16 main_cst_0
  let main_v6 : IVec S8x2048x16 1 := cmpf .olt main_v4 main_v5
  let main_c_1 : IVec S_ 1 := constantI S_ 1 1#1
  let main_v7 : IVec S_ 1 := (fun x v => Host.reduce IntOp.andi x v reducesTo_S8x2048x16_S_d0_1_2 h_S_) main_v6 main_c_1
  let main_v8 : IVec S_ 1 := andi main_v3 main_v7
  let main_v9 : FVec F S8x16x2048 .f32 := Host.absf main_arg2
  let main_cst_2 : FVec F S_ .f32 := constant S_ .f32 0x7F800000#32
  let main_v10 : FVec F S8x16x2048 .f32 := broadcastInDim S8x16x2048 ![] bcast_S_S8x16x2048 main_cst_2
  let main_v11 : IVec S8x16x2048 1 := cmpf .olt main_v9 main_v10
  let main_c_3 : IVec S_ 1 := constantI S_ 1 1#1
  let main_v12 : IVec S_ 1 := (fun x v => Host.reduce IntOp.andi x v reducesTo_S8x16x2048_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S8x2048x2048 : Shape := ⟨3, ![8, 2048, 2048]⟩
abbrev S8x2048x16 : Shape := ⟨3, ![8, 2048, 16]⟩
abbrev S8x16x2048 : Shape := ⟨3, ![8, 16, 2048]⟩
abbrev S2048x2048 : Shape := ⟨2, ![2048, 2048]⟩
abbrev S2048 : Shape := ⟨1, ![2048]⟩
abbrev S1x2048 : Shape := ⟨2, ![1, 2048]⟩
abbrev S1x256x2048 : Shape := ⟨3, ![1, 256, 2048]⟩
abbrev S1x2048x16 : Shape := ⟨3, ![1, 2048, 16]⟩
abbrev S1x16x2048 : Shape := ⟨3, ![1, 16, 2048]⟩
abbrev S256x2048 : Shape := ⟨2, ![256, 2048]⟩
abbrev S2048x16 : Shape := ⟨2, ![2048, 16]⟩
abbrev S256x16 : Shape := ⟨2, ![256, 16]⟩
abbrev S16x2048 : Shape := ⟨2, ![16, 2048]⟩

abbrev nBuf : Space → Nat
  | .hbm => 13
  | .vmem => 10
  | .smem => 0
  | _ => 0

abbrev bufTy : (tb : Table) → Fin (tcTables nBuf tb) → BufTy
  | .hbm, ⟨0, _⟩ => ⟨S8x2048x2048, .f32⟩
  | .hbm, ⟨1, _⟩ => ⟨S8x2048x16, .f32⟩
  | .hbm, ⟨2, _⟩ => ⟨S8x16x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .bf16⟩
  | .hbm, ⟨7, _⟩ => ⟨S8x2048x16, .f32⟩
  | .hbm, ⟨8, _⟩ => ⟨S8x2048x16, .bf16⟩
  | .hbm, ⟨9, _⟩ => ⟨S8x16x2048, .f32⟩
  | .hbm, ⟨10, _⟩ => ⟨S8x16x2048, .bf16⟩
  | .hbm, ⟨11, _⟩ => ⟨S1x2048, .f32⟩
  | .hbm, ⟨12, _⟩ => ⟨S8x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S2048x2048, .bf16⟩
  | .local _ .vmem, ⟨3, _⟩ => ⟨S1x2048x16, .bf16⟩
  | .local _ .vmem, ⟨4, _⟩ => ⟨S1x2048x16, .bf16⟩
  | .local _ .vmem, ⟨5, _⟩ => ⟨S1x16x2048, .bf16⟩
  | .local _ .vmem, ⟨6, _⟩ => ⟨S1x16x2048, .bf16⟩
  | .local _ .vmem, ⟨7, _⟩ => ⟨S1x2048, .f32⟩
  | .local _ .vmem, ⟨8, _⟩ => ⟨S1x256x2048, .f32⟩
  | .local _ .vmem, ⟨9, _⟩ => ⟨S1x256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S2048x2048_S2048x2048_1_0 : S2048x2048.Transposes [1, 0] S2048x2048
  bitsLt_bf16_f32 : FTy.bits .bf16 < FTy.bits .f32
  transposes_S8x16x2048_S8x2048x16_0_2_1 : S8x16x2048.Transposes [0, 2, 1] S8x2048x16
  transposes_S8x2048x16_S8x16x2048_0_2_1 : S8x2048x16.Transposes [0, 2, 1] S8x16x2048
  shapeCasts_S2048_S1x2048 : S2048.ShapeCasts S1x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048x16_S1x2048x16_0_0_0 : ∀ a, (![0, 0, 0] : Fin 3 → Nat) a + S1x2048x16.size a ≤ S1x2048x16.size a
  h_S1x2048x16 : 0 < S1x2048x16.numel
  shapeCasts_S1x2048x16_S2048x16 : S1x2048x16.ShapeCasts S2048x16
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  shapeCasts_S256x2048_S1x256x2048 : S256x2048.ShapeCasts S1x256x2048
  dot_S256x2048_S2048x2048_S256x2048_1_0_0_1_n_n_wf : DotDims.WF S256x2048 S2048x2048 S256x2048 [1] [0] [0] [1] [] []
  dot_S256x2048_S2048x16_S256x16_1_0_0_1_n_n_wf : DotDims.WF S256x2048 S2048x16 S256x16 [1] [0] [0] [1] [] []
  dot_S256x16_S16x2048_S256x2048_1_0_0_1_n_n_wf : DotDims.WF S256x16 S16x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x2048x2048.size a
  hwx0_0 : ∀ i : grid0.Coords, EltTy.bits .f32 = 32 ∨ (Rect.block (s := S8x2048x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x16.size a ≤ S8x2048x16.size a
  hwx0_2 : ∀ i : grid0.Coords, EltTy.bits .bf16 = 32 ∨ (Rect.block (s := S8x2048x16) S1x2048x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x2048.size a ≤ S8x16x2048.size a
  hwx0_3 : ∀ i : grid0.Coords, EltTy.bits .bf16 = 32 ∨ (Rect.block (s := S8x16x2048) S1x16x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S8x2048x2048.size a
  hwx0_5 : ∀ i : grid0.Coords, EltTy.bits .f32 = 32 ∨ (Rect.block (s := S8x2048x2048) S1x256x2048.size (cc0_transform_5 i) (hinb0_5 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x16_S256x16_1_0_0_1_n_n : DotDims S256x2048 S2048x16 S256x16 where
  lhsContracting := [1]
  rhsContracting := [0]
  lhsNonContracting := [0]
  rhsNonContracting := [1]
  lhsBatch := []
  rhsBatch := []
  wf := dot_S256x2048_S2048x16_S256x16_1_0_0_1_n_n_wf
def dot_S256x16_S16x2048_S256x2048_1_0_0_1_n_n : DotDims S256x16 S16x2048 S256x2048 where
  lhsContracting := [1]
  rhsContracting := [0]
  lhsNonContracting := [0]
  rhsNonContracting := [1]
  lhsBatch := []
  rhsBatch := []
  wf := dot_S256x16_S16x2048_S256x2048_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x16x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S8x2048x16 : Shape := ⟨3, ![8, 2048, 16]⟩
abbrev S8x16x2048 : Shape := ⟨3, ![8, 16, 2048]⟩
abbrev S2048x2048 : Shape := ⟨2, ![2048, 2048]⟩
abbrev S2048 : Shape := ⟨1, ![2048]⟩
abbrev S1x1x2048 : Shape := ⟨3, ![1, 1, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x16, .f32⟩
  | .hbm, ⟨2, _⟩ => ⟨S8x16x2048, .f32⟩
  | .hbm, ⟨3, _⟩ => ⟨S2048x2048, .f32⟩
  | .hbm, ⟨4, _⟩ => ⟨S2048, .f32⟩
  | .hbm, ⟨5, _⟩ => ⟨S8x2048x2048, .f32⟩
  | .hbm, ⟨6, _⟩ => ⟨S1x1x2048, .f32⟩
  | .hbm, ⟨7, _⟩ => ⟨S8x2048x2048, .f32⟩
  | .hbm, ⟨8, _⟩ => ⟨S8x2048x2048, .f32⟩
  | .hbm, ⟨9, _⟩ => ⟨S8x2048x16, .f32⟩
  | .hbm, ⟨10, _⟩ => ⟨S8x2048x2048, .f32⟩
  | .hbm, ⟨11, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  dot_S8x2048x2048_S2048x2048_S8x2048x2048_2_1_01_0_n_n_wf : DotDims.WF S8x2048x2048 S2048x2048 S8x2048x2048 [2] [1] [0, 1] [0] [] []
  dot_S8x2048x2048_S8x16x2048_S8x2048x16_2_2_1_1_0_0_wf : DotDims.WF S8x2048x2048 S8x16x2048 S8x2048x16 [2] [2] [1] [1] [0] [0]
  dot_S8x2048x16_S8x2048x16_S8x2048x2048_2_2_1_1_0_0_wf : DotDims.WF S8x2048x16 S8x2048x16 S8x2048x2048 [2] [2] [1] [1] [0] [0]

variable [Facts₀]

def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf
def dot_S8x2048x2048_S8x16x2048_S8x2048x16_2_2_1_1_0_0 : DotDims S8x2048x2048 S8x16x2048 S8x2048x16 where
  lhsContracting := [2]
  rhsContracting := [2]
  lhsNonContracting := [1]
  rhsNonContracting := [1]
  lhsBatch := [0]
  rhsBatch := [0]
  wf := dot_S8x2048x2048_S8x16x2048_S8x2048x16_2_2_1_1_0_0_wf
def dot_S8x2048x16_S8x2048x16_S8x2048x2048_2_2_1_1_0_0 : DotDims S8x2048x16 S8x2048x16 S8x2048x2048 where
  lhsContracting := [2]
  rhsContracting := [2]
  lhsNonContracting := [1]
  rhsNonContracting := [1]
  lhsBatch := [0]
  rhsBatch := [0]
  wf := dot_S8x2048x16_S8x2048x16_S8x2048x2048_2_2_1_1_0_0_wf

class Facts : Prop extends Facts₀ where

variable [Facts]
-- ==== Proof.Products.lean ====
/-
  The kernel body's three matrix products, each read at one output element, on the extended reals.

  All three contract the left operand's columns against the right operand's rows ([m,k] · [k,n], no batch axis) into
  a zero accumulator, so at (p, o) each is the plain sum  Σ_k l[p,k] · r[k,o]:
    • rows of the activation block against the transposed shared weight     [256,2048] · [2048,2048],
    • the same rows against the transposed down-projection                  [256,2048] · [2048,16],
    • the rank-16 intermediate against the transposed up-projection         [256,16]   · [16,2048].
  For each product the operand indices at output index (p, o) and contraction coordinate k are identified as
  (p, k) on the left and (k, o) on the right, axis by axis, and the sum over the one-axis contraction index is
  re-indexed by that coordinate.
-/
import proofs.«134310_j67774583931082_1_alg».proof.Proof.Gen.KernelIdeal.Skeleton
import Idealize.ShloMosaic.Lib.ValueIdx
import Idealize.ShloMosaic.PureOps.Ideal.Laws

noncomputable section

open scoped BigOperators

namespace Cert.KernelIdeal.Products

open Cert.KernelIdeal Cert.KernelIdeal.Gen Idealize.ShloMosaic Idealize.ShloMosaic.ValueIdx

/-! ## Rows against the transposed shared weight: [256,2048] · [2048,2048] -/

theorem lhs_dense_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhs_dense_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem rhs_dense_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem rhs_dense_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- The dense product at (p, o): row `p` of the left block against column `o` of the right. -/
theorem dense_apply (l : FVec Ideal S256x2048 .bf16) (r : FVec Ideal S2048x2048 .bf16) (p : Fin 256) (o : Fin 2048) :
    matmul dot_S256x2048_S2048x2048_S256x2048_1_0_0_1_n_n none l r (constant (F := Ideal) S256x2048 .f32 0x00000000#32) (ix2 p o)
      = ∑ k : Fin 2048, l (ix2 p k) * r (ix2 k o) := by
  simp only [matmul]
  rw [Ideal.matmul_constant_zero_apply, ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 p o) ((contrEquiv1 dot_S256x2048_S2048x2048_S256x2048_1_0_0_1_n_n 2048 rfl rfl).symm k) = ix2 p k := funext fun a => Fin.ext (by
    match a with
    | ⟨0, _⟩ => exact lhs_dense_0 _ _
    | ⟨1, _⟩ => exact (lhs_dense_1 _ _).trans hk)
  have er : dot_S256x2048_S2048x2048_S256x2048_1_0_0_1_n_n.rhsIdx (ix2 p o) ((contrEquiv1 dot_S256x2048_S2048x2048_S256x2048_1_0_0_1_n_n 2048 rfl rfl).symm k) = ix2 k o := funext fun a => Fin.ext (by
    match a with
    | ⟨0, _⟩ => exact (rhs_dense_0 _ _).trans hk
    | ⟨1, _⟩ => exact rhs_dense_1 _ _)
  rw [el, er]

/-! ## Rows against the transposed down-projection: [256,2048] · [2048,16] -/

theorem lhs_down_0 (i : S256x16.Idx) (q : dot_S256x2048_S2048x16_S256x16_1_0_0_1_n_n.contr.Idx) :
    (dot_S256x2048_S2048x16_S256x16_1_0_0_1_n_n.lhsIdx i q 0).val = (i 0).val := by
  unfold DotDims.lhsIdx
  rw [dif_neg (show ¬(0 : Fin S256x2048.rank) ∈ dot_S256x2048_S2048x16_S256x16_1_0_0_1_n_n.lhsBatch by decide), dif_pos (show (0 : Fin S256x2048.rank) ∈ dot_S256x2048_S2048x16_S256x16_1_0_0_1_n_n.lhsNonContracting by decide)]
  rfl
theorem lhs_down_1 (i : S256x16.Idx) (q : dot_S256x2048_S2048x16_S256x16_1_0_0_1_n_n.contr.Idx) :
    (dot_S256x2048_S2048x16_S256x16_1_0_0_1_n_n.lhsIdx i q 1).val = (q ⟨0, by decide⟩).val :=
  dot_S256x2048_S2048x16_S256x16_1_0_0_1_n_n.lhsIdx_val_of_single rfl i q
theorem rhs_down_0 (i : S256x16.Idx) (q : dot_S256x2048_S2048x16_S256x16_1_0_0_1_n_n.contr.Idx) :
    (dot_S256x2048_S2048x16_S256x16_1_0_0_1_n_n.rhsIdx i q 0).val = (q ⟨0, by decide⟩).val :=
  dot_S256x2048_S2048x16_S256x16_1_0_0_1_n_n.rhsIdx_val_of_single rfl i q
theorem rhs_down_1 (i : S256x16.Idx) (q : dot_S256x2048_S2048x16_S256x16_1_0_0_1_n_n.contr.Idx) :
    (dot_S256x2048_S2048x16_S256x16_1_0_0_1_n_n.rhsIdx i q 1).val = (i 1).val := by
  unfold DotDims.rhsIdx
  rw [dif_neg (show ¬(1 : Fin S2048x16.rank) ∈ dot_S256x2048_S2048x16_S256x16_1_0_0_1_n_n.rhsBatch by decide), dif_pos (show (1 : Fin S2048x16.rank) ∈ dot_S256x2048_S2048x16_S256x16_1_0_0_1_n_n.rhsNonContracting by decide)]
  rfl

/-- The down-projection at (p, r): row `p` of the left block against column `r` of the right. -/
theorem down_apply (l : FVec Ideal S256x2048 .bf16) (r : FVec Ideal S2048x16 .bf16) (p : Fin 256) (j : Fin 16) :
    matmul dot_S256x2048_S2048x16_S256x16_1_0_0_1_n_n none l r (constant (F := Ideal) S256x16 .f32 0x00000000#32) (ix2 p j)
      = ∑ k : Fin 2048, l (ix2 p k) * r (ix2 k j) := by
  simp only [matmul]
  rw [Ideal.matmul_constant_zero_apply, ← Equiv.sum_comp (contrEquiv1 dot_S256x2048_S2048x16_S256x16_1_0_0_1_n_n 2048 rfl rfl).symm]
  refine Finset.sum_congr rfl fun k _ => ?_
  have hk := contrEquiv1_symm_val dot_S256x2048_S2048x16_S256x16_1_0_0_1_n_n 2048 rfl rfl k
  have el : dot_S256x2048_S2048x16_S256x16_1_0_0_1_n_n.lhsIdx (ix2 p j) ((contrEquiv1 dot_S256x2048_S2048x16_S256x16_1_0_0_1_n_n 2048 rfl rfl).symm k) = ix2 p k := funext fun a => Fin.ext (by
    match a with
    | ⟨0, _⟩ => exact lhs_down_0 _ _
    | ⟨1, _⟩ => exact (lhs_down_1 _ _).trans hk)
  have er : dot_S256x2048_S2048x16_S256x16_1_0_0_1_n_n.rhsIdx (ix2 p j) ((contrEquiv1 dot_S256x2048_S2048x16_S256x16_1_0_0_1_n_n 2048 rfl rfl).symm k) = ix2 k j := funext fun a => Fin.ext (by
    match a with
    | ⟨0, _⟩ => exact (rhs_down_0 _ _).trans hk
    | ⟨1, _⟩ => exact rhs_down_1 _ _)
  rw [el, er]

/-! ## The rank-16 intermediate against the transposed up-projection: [256,16] · [16,2048] -/

theorem lhs_up_0 (i : S256x2048.Idx) (q : dot_S256x16_S16x2048_S256x2048_1_0_0_1_n_n.contr.Idx) :
    (dot_S256x16_S16x2048_S256x2048_1_0_0_1_n_n.lhsIdx i q 0).val = (i 0).val := by
  unfold DotDims.lhsIdx
  rw [dif_neg (show ¬(0 : Fin S256x16.rank) ∈ dot_S256x16_S16x2048_S256x2048_1_0_0_1_n_n.lhsBatch by decide), dif_pos (show (0 : Fin S256x16.rank) ∈ dot_S256x16_S16x2048_S256x2048_1_0_0_1_n_n.lhsNonContracting by decide)]
  rfl
theorem lhs_up_1 (i : S256x2048.Idx) (q : dot_S256x16_S16x2048_S256x2048_1_0_0_1_n_n.contr.Idx) :
    (dot_S256x16_S16x2048_S256x2048_1_0_0_1_n_n.lhsIdx i q 1).val = (q ⟨0, by decide⟩).val :=
  dot_S256x16_S16x2048_S256x2048_1_0_0_1_n_n.lhsIdx_val_of_single rfl i q
theorem rhs_up_0 (i : S256x2048.Idx) (q : dot_S256x16_S16x2048_S256x2048_1_0_0_1_n_n.contr.Idx) :
    (dot_S256x16_S16x2048_S256x2048_1_0_0_1_n_n.rhsIdx i q 0).val = (q ⟨0, by decide⟩).val :=
  dot_S256x16_S16x2048_S256x2048_1_0_0_1_n_n.rhsIdx_val_of_single rfl i q
theorem rhs_up_1 (i : S256x2048.Idx) (q : dot_S256x16_S16x2048_S256x2048_1_0_0_1_n_n.contr.Idx) :
    (dot_S256x16_S16x2048_S256x2048_1_0_0_1_n_n.rhsIdx i q 1).val = (i 1).val := by
  unfold DotDims.rhsIdx
  rw [dif_neg (show ¬(1 : Fin S16x2048.rank) ∈ dot_S256x16_S16x2048_S256x2048_1_0_0_1_n_n.rhsBatch by decide), dif_pos (show (1 : Fin S16x2048.rank) ∈ dot_S256x16_S16x2048_S256x2048_1_0_0_1_n_n.rhsNonContracting by decide)]
  rfl

/-- The up-projection at (p, o): row `p` of the intermediate against column `o` of the right block. -/
theorem up_apply (l : FVec Ideal S256x16 .bf16) (r : FVec Ideal S16x2048 .bf16) (p : Fin 256) (o : Fin 2048) :
    matmul dot_S256x16_S16x2048_S256x2048_1_0_0_1_n_n none l r (constant (F := Ideal) S256x2048 .f32 0x00000000#32) (ix2 p o)
      = ∑ j : Fin 16, l (ix2 p j) * r (ix2 j o) := by
  simp only [matmul]
  rw [Ideal.matmul_constant_zero_apply, ← Equiv.sum_comp (contrEquiv1 dot_S256x16_S16x2048_S256x2048_1_0_0_1_n_n 16 rfl rfl).symm]
  refine Finset.sum_congr rfl fun k _ => ?_
  have hk := contrEquiv1_symm_val dot_S256x16_S16x2048_S256x2048_1_0_0_1_n_n 16 rfl rfl k
  have el : dot_S256x16_S16x2048_S256x2048_1_0_0_1_n_n.lhsIdx (ix2 p o) ((contrEquiv1 dot_S256x16_S16x2048_S256x2048_1_0_0_1_n_n 16 rfl rfl).symm k) = ix2 p k := funext fun a => Fin.ext (by
    match a with
    | ⟨0, _⟩ => exact lhs_up_0 _ _
    | ⟨1, _⟩ => exact (lhs_up_1 _ _).trans hk)
  have er : dot_S256x16_S16x2048_S256x2048_1_0_0_1_n_n.rhsIdx (ix2 p o) ((contrEquiv1 dot_S256x16_S16x2048_S256x2048_1_0_0_1_n_n 16 rfl rfl).symm k) = ix2 k o := funext fun a => Fin.ext (by
    match a with
    | ⟨0, _⟩ => exact (rhs_up_0 _ _).trans hk
    | ⟨1, _⟩ => exact rhs_up_1 _ _)
  rw [el, er]

end Cert.KernelIdeal.Products

end
-- ==== Proof.Body.lean ====
/-
  What the kernel body stores, read at one element of its [1,256,2048] output block.

  The body loads a block of 256 activation rows `xb`, the whole transposed weight `wt` ([in, out]), this batch's
  transposed down-projection `bt` ([in, rank]) and transposed up-projection `at` ([rank, out]) and the bias row, and
  stores  (xb·wt + (xb·bt)·at) + bias.  On the extended reals the changes of float format are identities and each
  matrix product into a zero accumulator is a plain sum, so at row `p` and output feature `o` the stored value is
    Σ_k xb[p,k]·wt[k,o]  +  Σ_j (Σ_k xb[p,k]·bt[k,j])·at[j,o]  +  bias[o].
-/
import proofs.«134310_j67774583931082_1_alg».proof.Proof.Products
import Idealize.ShloMosaic.Lib.ValueLayout

noncomputable section

open scoped BigOperators

namespace Cert.KernelIdeal.Body

open Cert.KernelIdeal Cert.KernelIdeal.Gen Cert.KernelIdeal.Products Idealize.ShloMosaic Idealize.ShloMosaic.ValueIdx

/-- The stored block at (u, p, o), `u` the unit leading coordinate: the three sums over the loaded blocks and the
    bias row's entry. -/
theorem stored_apply (xb : FVec Ideal S1x256x2048 .f32) (wt : FVec Ideal S2048x2048 .bf16) (bt : FVec Ideal S1x2048x16 .bf16)
    (at' : FVec Ideal S1x16x2048 .bf16) (bias : FVec Ideal S1x2048 .f32) (u : Fin 1) (p : Fin 256) (o : Fin 2048) :
    k0_pay1 (F := Ideal) xb wt bt at' bias (ix3 u p o)
      = (∑ k : Fin 2048, xb (ix3 (0 : Fin 1) p k) * wt (ix2 k o))
        + (∑ j : Fin 16, (∑ k : Fin 2048, xb (ix3 (0 : Fin 1) p k) * bt (ix3 (0 : Fin 1) k j)) * at' (ix3 (0 : Fin 1) j o))
        + bias (ix2 (0 : Fin 1) o) := by
  unfold k0_pay1
  simp only [shapeCast_self]
  rw [shapeCast_ab_1ab_apply, addf_apply, addf_apply, dense_apply, up_apply, broadcastTo_1b_ab_apply]
  congr 1
  congr 1
  · refine Finset.sum_congr rfl fun k _ => ?_
    rw [truncf_apply, shapeCast_1ab_ab_apply]
  · refine Finset.sum_congr rfl fun j _ => ?_
    rw [truncf_apply, down_apply, shapeCast_1ab_ab_apply]
    congr 1
    refine Finset.sum_congr rfl fun k _ => ?_
    rw [truncf_apply, shapeCast_1ab_ab_apply, shapeCast_1ab_ab_apply]

end Cert.KernelIdeal.Body

end
-- ==== Proof.Spec.lean ====
/-
  The function both programs compute, index by index, on the extended reals.

  For a batch `b`, a row `s` and an output feature `o`:
    dense b s o   = Σ_k x[b,s,k] · W[o,k]                       (the shared linear layer, x · Wᵀ)
    down  b s r   = Σ_k x[b,s,k] · B[b,r,k]                     (the per-sample projection to rank 16, x · B_bᵀ)
    adapt b s o   = Σ_r down b s r · A[b,o,r]                   (back up to the output width, (x · B_bᵀ) · A_bᵀ)
    lora          = (dense + adapt) + bias[o]
  The kernel adds the bias last, the reference adds it to the dense term first; addition of extended reals is
  commutative and associative (also at the infinities), so the two groupings agree with no finiteness needed.
-/
import Idealize.ShloMosaic.PureOps.Ideal
import Idealize.ShloMosaic.Lib.ValueIdx

noncomputable section

open scoped BigOperators

namespace Cert.Lora

open Idealize.ShloMosaic Idealize.ShloMosaic.ValueIdx

/-- The activations `x : [8, 2048, 2048]` (batch, row, input feature). -/
abbrev SX : Shape := ⟨3, ![8, 2048, 2048]⟩
/-- The up-projection `A : [8, 2048, 16]` (batch, output feature, rank). -/
abbrev SA : Shape := ⟨3, ![8, 2048, 16]⟩
/-- The down-projection `B : [8, 16, 2048]` (batch, rank, input feature). -/
abbrev SB : Shape := ⟨3, ![8, 16, 2048]⟩
/-- The shared weight `W : [2048, 2048]` (output feature, input feature). -/
abbrev SW : Shape := ⟨2, ![2048, 2048]⟩
/-- The bias `[2048]` (output feature). -/
abbrev Sb : Shape := ⟨1, ![2048]⟩

/-- The shared linear layer at (b, s, o): row `s` of batch `b` against row `o` of `W`. -/
def dense (x : SX.Idx → EReal) (W : SW.Idx → EReal) (b : Fin 8) (s o : Fin 2048) : EReal :=
  ∑ k : Fin 2048, x (ix3 b s k) * W (ix2 o k)

/-- The rank-16 projection at (b, s, r): row `s` of batch `b` against row `r` of that batch's `B`. -/
def down (x : SX.Idx → EReal) (B : SB.Idx → EReal) (b : Fin 8) (s : Fin 2048) (r : Fin 16) : EReal :=
  ∑ k : Fin 2048, x (ix3 b s k) * B (ix3 b r k)

/-- The low-rank correction at (b, s, o): the projection against row `o` of that batch's `A`. -/
def adapt (x : SX.Idx → EReal) (A : SA.Idx → EReal) (B : SB.Idx → EReal) (b : Fin 8) (s o : Fin 2048) : EReal :=
  ∑ r : Fin 16, down x B b s r * A (ix3 b o r)

/-- The whole result, grouped as the kernel computes it: (dense + correction) + bias. -/
def lora (x : SX.Idx → EReal) (A : SA.Idx → EReal) (B : SB.Idx → EReal) (W : SW.Idx → EReal) (bias : Sb.Idx → EReal) :
    SX.Idx → EReal := fun i =>
  dense x W (i 0) (i 1) (i 2) + adapt x A B (i 0) (i 1) (i 2) + bias (ix1 (i 2))

/-- The reference's grouping, (dense + bias) + correction, is the same extended real. -/
theorem lora_eq_bias_first (x : SX.Idx → EReal) (A : SA.Idx → EReal) (B : SB.Idx → EReal) (W : SW.Idx → EReal)
    (bias : Sb.Idx → EReal) (i : SX.Idx) :
    dense x W (i 0) (i 1) (i 2) + bias (ix1 (i 2)) + adapt x A B (i 0) (i 1) (i 2) = lora x A B W bias i :=
  add_right_comm _ _ _

end Cert.Lora

end
-- ==== Proof.KernelResult.lean ====
/-
  The kernel's result array is `Cert.Lora.lora` of its five arguments.

  Before the one pallas_call the host transposes the shared weight ([out,in] → [in,out]), each batch's
  down-projection ([rank,in] → [in,rank]) and up-projection ([out,rank] → [rank,out]), narrows them to bf16 (the
  identity on the extended reals) and reshapes the bias to one row. The grid is (batch, row tile): point (bi, si)
  reads rows 256·si … 256·si+255 of batch bi's activations, the whole transposed weight, batch bi's two transposed
  projections and the bias row, and writes rows 256·si … of batch bi's output.

  So at point t the element (p, o) of the stored block — the three sums over the loaded blocks plus the bias entry —
  is, with the transposes read back through, dense + adapt + bias at (bi, 256·si + p, o): the specification at the
  array index the block's element lands on. The 64 blocks tile the output array, hence the whole array is the
  specification.
-/
import proofs.«134310_j67774583931082_1_alg».proof.Proof.Gen.KernelIdeal.Value
import proofs.«134310_j67774583931082_1_alg».proof.Proof.Body
import proofs.«134310_j67774583931082_1_alg».proof.Proof.Spec
import Idealize.ShloMosaic.Lib.Pipeline.Value
import Idealize.ShloMosaic.Lib.ValueLayout
import Idealize.ShloMosaic.Lib.StableHlo.Run

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the host leaves in the arrays the kernel reads -/

/-- The transposed weight at (k, o) is W at (o, k). -/
theorem wt_entry (c : Dev nD) (k o : Fin 2048) :
    (V m c main_v1 : S2048x2048.Idx → EReal) (ix2 k o) = m ((c : Thread nD τ).loc main_arg3) (ix2 o k) := by
  have e : (V m c main_v1 : S2048x2048.Idx → EReal)
      = truncf (F := Ideal) .bf16 (transpose S2048x2048 [1, 0] (m ((c : Thread nD τ).loc main_arg3)) transposes_S2048x2048_S2048x2048_1_0) bitsLt_bf16_f32 := by
    dsimp only [V, hostOps0]; after_results
  rw [e, truncf_apply, transpose_ix2_apply]

/-- The transposed down-projection at (b, k, r) is B at (b, r, k). -/
theorem bt_entry (c : Dev nD) (b : Fin 8) (k : Fin 2048) (r : Fin 16) :
    (V m c main_v3 : S8x2048x16.Idx → EReal) (ix3 b k r) = m ((c : Thread nD τ).loc main_arg2) (ix3 b r k) := by
  have e : (V m c main_v3 : S8x2048x16.Idx → EReal)
      = truncf (F := Ideal) .bf16 (transpose S8x2048x16 [0, 2, 1] (m ((c : Thread nD τ).loc main_arg2)) transposes_S8x16x2048_S8x2048x16_0_2_1) bitsLt_bf16_f32 := by
    dsimp only [V, hostOps0]; after_results
  rw [e, truncf_apply, transpose_ix3_021_apply]

/-- The transposed up-projection at (b, r, o) is A at (b, o, r). -/
theorem at_entry (c : Dev nD) (b : Fin 8) (r : Fin 16) (o : Fin 2048) :
    (V m c main_v5 : S8x16x2048.Idx → EReal) (ix3 b r o) = m ((c : Thread nD τ).loc main_arg1) (ix3 b o r) := by
  have e : (V m c main_v5 : S8x16x2048.Idx → EReal)
      = truncf (F := Ideal) .bf16 (transpose S8x16x2048 [0, 2, 1] (m ((c : Thread nD τ).loc main_arg1)) transposes_S8x2048x16_S8x16x2048_0_2_1) bitsLt_bf16_f32 := by
    dsimp only [V, hostOps0]; after_results
  rw [e, truncf_apply, transpose_ix3_021_apply]

/-- The bias row at (0, o) is the bias at o. -/
theorem bias_entry (c : Dev nD) (u : Fin 1) (o : Fin 2048) :
    (V m c main_v6 : S1x2048.Idx → EReal) (ix2 u o) = m ((c : Thread nD τ).loc main_arg4) (ix1 o) := by
  have e : (V m c main_v6 : S1x2048.Idx → EReal)
      = shapeCast S1x2048 (m ((c : Thread nD τ).loc main_arg4)) shapeCasts_S2048_S1x2048 := by
    dsimp only [V, hostOps0]; after_results; rfl
  rw [e, shapeCast_a_1a_apply]

/-! ## Where each window's block sits, over the 64 grid points -/

/-- The activation block and the output block share their batch and row-tile indices; the two projections follow the
    batch index; the weight and the bias are one block each; all feature-axis block indices are 0. -/
theorem block_indices : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_1.index t (0 : Fin 2) = 0 ∧ win0_1.index t (1 : Fin 2) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 2) = 0 ∧ win0_4.index t (1 : Fin 2) = 0
    ∧ win0_5.index t (0 : Fin 3) < 8 ∧ win0_5.index t (1 : Fin 3) < 8 :=
  (by decide +kernel : ∀ t : Fin grid0.N, _)

/-- Every (batch, row tile) pair is some point's output block. -/
theorem block_onto : ∀ (q0 : Fin 8) (q1 : Fin 8), ∃ t : Fin cfg0.N, win0_5.index t = ![q0.val, q1.val, 0] :=
  (by decide +kernel : ∀ (q0 : Fin 8) (q1 : Fin 8), ∃ t : Fin grid0.N, win0_5.index t = ![q0.val, q1.val, 0])

/-! ## The loaded blocks, element by element, in terms of the arguments -/

/-- Row `p` of the activation block at point `t` is row 256·si + p of batch bi. -/
theorem x_read (c : Dev nD) (t : Fin cfg0.N) (p : Fin 256) (k : Fin 2048) (b : Fin 8) (s : Fin 2048)
    (hb : b.val = win0_5.index t (0 : Fin 3)) (hs : s.val = win0_5.index t (1 : Fin 3) * 256 + p.val) :
    (iblk m c 0 t : FVec Ideal S1x256x2048 .f32) (ix3 (0 : Fin 1) p k) = m ((c : Thread nD τ).loc main_arg0) (ix3 b s k) := by
  obtain ⟨e0, e1, e2, -⟩ := block_indices t
  show V m c main_arg0 (((cfg0.win 0).blk t).view.emb (ix3 (0 : Fin 1) p k)) = _
  rw [V_main_arg0]
  congr 1
  funext a
  apply Fin.ext
  match a with
  | ⟨0, _⟩ => show win0_0.index t (0 : Fin 3) * 1 + 1 * 0 = b.val; omega
  | ⟨1, _⟩ => show win0_0.index t (1 : Fin 3) * 256 + 1 * p.val = s.val; omega
  | ⟨2, _⟩ => show win0_0.index t (2 : Fin 3) * 2048 + 1 * k.val = k.val; omega

/-- The weight block is the whole transposed weight. -/
theorem wt_read (c : Dev nD) (t : Fin cfg0.N) (k o : Fin 2048) :
    (iblk m c 1 t : FVec Ideal S2048x2048 .bf16) (ix2 k o) = m ((c : Thread nD τ).loc main_arg3) (ix2 o k) := by
  obtain ⟨-, -, -, -, e0, e1, -⟩ := block_indices t
  have he : ((cfg0.win 1).blk t).view.emb (ix2 k o) = ix2 k o := by
    funext a
    apply Fin.ext
    match a with
    | ⟨0, _⟩ => show win0_1.index t (0 : Fin 2) * 2048 + 1 * k.val = k.val; omega
    | ⟨1, _⟩ => show win0_1.index t (1 : Fin 2) * 2048 + 1 * o.val = o.val; omega
  show (V m c main_v1 : S2048x2048.Idx → EReal) (((cfg0.win 1).blk t).view.emb (ix2 k o)) = _
  rw [he, wt_entry]

/-- The down-projection block is batch bi's transposed down-projection. -/
theorem bt_read (c : Dev nD) (t : Fin cfg0.N) (k : Fin 2048) (r : Fin 16) (b : Fin 8)
    (hb : b.val = win0_5.index t (0 : Fin 3)) :
    (iblk m c 2 t : FVec Ideal S1x2048x16 .bf16) (ix3 (0 : Fin 1) k r) = m ((c : Thread nD τ).loc main_arg2) (ix3 b r k) := by
  obtain ⟨-, -, -, -, -, -, e0, e1, e2, -⟩ := block_indices t
  have he : ((cfg0.win 2).blk t).view.emb (ix3 (0 : Fin 1) k r) = ix3 b k r := by
    funext a
    apply Fin.ext
    match a with
    | ⟨0, _⟩ => show win0_2.index t (0 : Fin 3) * 1 + 1 * 0 = b.val; omega
    | ⟨1, _⟩ => show win0_2.index t (1 : Fin 3) * 2048 + 1 * k.val = k.val; omega
    | ⟨2, _⟩ => show win0_2.index t (2 : Fin 3) * 16 + 1 * r.val = r.val; omega
  show (V m c main_v3 : S8x2048x16.Idx → EReal) (((cfg0.win 2).blk t).view.emb (ix3 (0 : Fin 1) k r)) = _
  rw [he, bt_entry]

/-- The up-projection block is batch bi's transposed up-projection. -/
theorem at_read (c : Dev nD) (t : Fin cfg0.N) (r : Fin 16) (o : Fin 2048) (b : Fin 8)
    (hb : b.val = win0_5.index t (0 : Fin 3)) :
    (iblk m c 3 t : FVec Ideal S1x16x2048 .bf16) (ix3 (0 : Fin 1) r o) = m ((c : Thread nD τ).loc main_arg1) (ix3 b o r) := by
  obtain ⟨-, -, -, -, -, -, -, -, -, e0, e1, e2, -⟩ := block_indices t
  have he : ((cfg0.win 3).blk t).view.emb (ix3 (0 : Fin 1) r o) = ix3 b r o := by
    funext a
    apply Fin.ext
    match a with
    | ⟨0, _⟩ => show win0_3.index t (0 : Fin 3) * 1 + 1 * 0 = b.val; omega
    | ⟨1, _⟩ => show win0_3.index t (1 : Fin 3) * 16 + 1 * r.val = r.val; omega
    | ⟨2, _⟩ => show win0_3.index t (2 : Fin 3) * 2048 + 1 * o.val = o.val; omega
  show (V m c main_v5 : S8x16x2048.Idx → EReal) (((cfg0.win 3).blk t).view.emb (ix3 (0 : Fin 1) r o)) = _
  rw [he, at_entry]

/-- The bias block is the bias row. -/
theorem bias_read (c : Dev nD) (t : Fin cfg0.N) (o : Fin 2048) :
    (iblk m c 4 t : FVec Ideal S1x2048 .f32) (ix2 (0 : Fin 1) o) = m ((c : Thread nD τ).loc main_arg4) (ix1 o) := by
  obtain ⟨-, -, -, -, -, -, -, -, -, -, -, -, e0, e1, -⟩ := block_indices t
  have he : ((cfg0.win 4).blk t).view.emb (ix2 (0 : Fin 1) o) = ix2 (0 : Fin 1) o := by
    funext a
    apply Fin.ext
    match a with
    | ⟨0, _⟩ => show win0_4.index t (0 : Fin 2) * 1 + 1 * 0 = 0; omega
    | ⟨1, _⟩ => show win0_4.index t (1 : Fin 2) * 2048 + 1 * o.val = o.val; omega
  show (V m c main_v6 : S1x2048.Idx → EReal) (((cfg0.win 4).blk t).view.emb (ix2 (0 : Fin 1) o)) = _
  rw [he, bias_entry]

/-! ## One stored element is the specification at the array index it lands on -/

/-- The specification of the five argument arrays as launched. -/
abbrev result (c : Dev nD) : S8x2048x2048.Idx → EReal :=
  Cert.Lora.lora (m ((c : Thread nD τ).loc main_arg0)) (m ((c : Thread nD τ).loc main_arg1)) (m ((c : Thread nD τ).loc main_arg2))
    (m ((c : Thread nD τ).loc main_arg3)) (m ((c : Thread nD τ).loc main_arg4))

/-- Element (p, o) of what point `t` stores is the specification at (bi, 256·si + p, o). -/
theorem stored_eq_result (c : Dev nD) (t : Fin cfg0.N) (u : Fin 1) (p : Fin 256) (o : Fin 2048) (b : Fin 8) (s : Fin 2048)
    (hb : b.val = win0_5.index t (0 : Fin 3)) (hs : s.val = win0_5.index t (1 : Fin 3) * 256 + p.val) :
    k0_pay1 (F := Ideal) (iblk m c 0 t) (iblk m c 1 t) (iblk m c 2 t) (iblk m c 3 t) (iblk m c 4 t) (ix3 u p o)
      = result m c (ix3 b s o) := by
  refine (Body.stored_apply (iblk m c 0 t) (iblk m c 1 t) (iblk m c 2 t) (iblk m c 3 t) (iblk m c 4 t) u p o).trans ?_
  unfold result Cert.Lora.lora Cert.Lora.dense Cert.Lora.adapt Cert.Lora.down
  refine congrArg₂ (· + ·) (congrArg₂ (· + ·) (Finset.sum_congr rfl fun k _ => ?_) (Finset.sum_congr rfl fun j _ => ?_)) ?_
  · rw [x_read m c t p k b s hb hs, wt_read m c t k o]
  · refine congrArg₂ (· * ·) (Finset.sum_congr rfl fun k _ => ?_) ?_
    · rw [x_read m c t p k b s hb hs, bt_read m c t k j b hb]
    · exact at_read m c t j o b hb
  · exact bias_read m c t o

/-! ## From blocks to the array -/

theorem zero3 : (![0, 0, 0] : Fin 3 → Nat) = fun _ => 0 := funext fun a => by fin_cases a <;> rfl
theorem zero2 : (![0, 0] : Fin 2 → Nat) = fun _ => 0 := funext fun a => by fin_cases a <;> rfl

/-- What point `t` writes back is block `t` of the specification. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zero3]
  simp only [View.ld_unit_zero (S := S1x256x2048) zero3, View.ld_unit_zero (S := S2048x2048) zero2,
    View.ld_unit_zero (S := S1x2048x16) zero3, View.ld_unit_zero (S := S1x16x2048) zero3, View.ld_unit_zero (S := S1x2048) zero2]
  obtain ⟨-, -, -, e2, -, -, -, -, -, -, -, -, -, -, l0, l1⟩ := block_indices t
  funext j
  obtain ⟨u, p, o, rfl⟩ : ∃ (u : Fin 1) (p : Fin 256) (o : Fin 2048), j = ix3 u p o := ⟨j 0, j 1, j 2, eq_ix3 j⟩
  have hu : u.val = 0 := by omega
  have hp : p.val < 256 := p.isLt
  show k0_pay1 (F := Ideal) (iblk m c 0 t) (iblk m c 1 t) (iblk m c 2 t) (iblk m c 3 t) (iblk m c 4 t) (ix3 u p o)
    = result m c (((cfg0.win 5).blk t).view.emb (ix3 u p o))
  have he : ((cfg0.win 5).blk t).view.emb (ix3 u p o)
      = ix3 (⟨win0_5.index t (0 : Fin 3), l0⟩ : Fin 8) (⟨win0_5.index t (1 : Fin 3) * 256 + p.val, by omega⟩ : Fin 2048) o := by
    funext a
    apply Fin.ext
    match a with
    | ⟨0, _⟩ => show win0_5.index t (0 : Fin 3) * 1 + 1 * u.val = win0_5.index t (0 : Fin 3); omega
    | ⟨1, _⟩ => show win0_5.index t (1 : Fin 3) * 256 + 1 * p.val = win0_5.index t (1 : Fin 3) * 256 + p.val; omega
    | ⟨2, _⟩ => show win0_5.index t (2 : Fin 3) * 2048 + 1 * o.val = o.val; omega
  rw [he]
  exact stored_eq_result m c t u p o _ _ rfl rfl

/-- An index of the array is in point `t`'s block iff each coordinate is in the block's range on its axis. -/
theorem mem_block (t : Fin cfg0.N) (i : S8x2048x2048.Idx) :
    i ∈ ((cfg0.win 5).blk t).view.set ↔ ∀ a : Fin 3, win0_5.index t a * S1x256x2048.size a ≤ (i a).val ∧ (i a).val < win0_5.index t a * S1x256x2048.size a + S1x256x2048.size a := by
  show i ∈ ((View.whole main_v7).slice (win0_5.rect t)).set ↔ _
  rw [View.set_slice_whole, Rect.mem_set_unit]
  exact Iff.rfl

/-- Every index of the output array is in some point's block: batch `b`, row `s` is in block (b, s / 256). -/
theorem cover (i : S8x2048x2048.Idx) : ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 2048 := (i 2).isLt
  obtain ⟨t, ht⟩ := block_onto ⟨(i 0).val, h0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

/-- The output array after the run is the specification. -/
theorem final (c : Dev nD) : (dats m 0 c).arrAt 5 cfg0.N = result m c :=
  (dats m 0 c).arrAt_eq_of_cover 5 (result m c) (fun t _ => flushed_eq m c t) cover

/-! ## The run -/

/-- Every weakly fair execution of the kernel program terminates with the result array at the specification of the
    arguments as launched, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.RefValue.lean ====
/-
  The reference's result is `Cert.Lora.lora` of its five arguments.

  The reference is seven host operations: x·Wᵀ as one contraction over the input feature, the bias broadcast along
  batch and row and added, the batched contraction x·B_bᵀ down to rank 16, the batched contraction of that with A_b
  over the rank, and the final sum. Read at an output index (b, s, o) the first is `dense`, the broadcast bias is
  bias[o], the two batched contractions are `adapt` over `down`, and the result is (dense + bias) + adapt: the
  specification with the bias added first, which is the same extended real.
-/
import proofs.«134310_j67774583931082_1_alg».proof.Proof.Gen.ReferenceIdeal.Read
import proofs.«134310_j67774583931082_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The operand indices of each contraction, by coordinates -/

/-- x·Wᵀ at (b, s, o), term k: x at (b, s, k) … -/
theorem dense_left (i : S8x2048x2048.Idx) (k : Fin 2048) : lidx_main_v0 i k = ix3 (i 0) (i 1) k :=
  funext fun a => match a with | ⟨0, _⟩ => rfl | ⟨1, _⟩ => rfl | ⟨2, _⟩ => rfl
/-- … and W at (o, k). -/
theorem dense_right (i : S8x2048x2048.Idx) (k : Fin 2048) : ridx_main_v0 i k = ix2 (i 2) k :=
  funext fun a => match a with | ⟨0, _⟩ => rfl | ⟨1, _⟩ => rfl
/-- x·B_bᵀ at (b, s, r), term k: x at (b, s, k) … -/
theorem down_left (i : S8x2048x16.Idx) (k : Fin 2048) : lidx_main_v4 i k = ix3 (i 0) (i 1) k :=
  funext fun a => match a with | ⟨0, _⟩ => rfl | ⟨1, _⟩ => rfl | ⟨2, _⟩ => rfl
/-- … and B at (b, r, k). -/
theorem down_right (i : S8x2048x16.Idx) (k : Fin 2048) : ridx_main_v4 i k = ix3 (i 0) (i 2) k :=
  funext fun a => match a with | ⟨0, _⟩ => rfl | ⟨1, _⟩ => rfl | ⟨2, _⟩ => rfl
/-- (x·B_bᵀ)·A_bᵀ at (b, s, o), term r: the projection at (b, s, r) … -/
theorem up_left (i : S8x2048x2048.Idx) (k : Fin 16) : lidx_main_v5 i k = ix3 (i 0) (i 1) k :=
  funext fun a => match a with | ⟨0, _⟩ => rfl | ⟨1, _⟩ => rfl | ⟨2, _⟩ => rfl
/-- … and A at (b, o, r). -/
theorem up_right (i : S8x2048x2048.Idx) (k : Fin 16) : ridx_main_v5 i k = ix3 (i 0) (i 2) k :=
  funext fun a => match a with | ⟨0, _⟩ => rfl | ⟨1, _⟩ => rfl | ⟨2, _⟩ => rfl
/-- The twice-broadcast bias at (b, s, o) is the bias at o. -/
theorem bias_at (i : S8x2048x2048.Idx) : idx_main_v1 (idx_main_v2 i) = ix1 (i 2) :=
  funext fun a => match a with | ⟨0, _⟩ => rfl

/-! ## The result -/

/-- The reference's last stage, on the extended reals, is the specification. -/
theorem reference_eq (x : (⟨S8x2048x2048, .f32⟩ : BufTy).Contents (Elt Ideal)) (A : (⟨S8x2048x16, .f32⟩ : BufTy).Contents (Elt Ideal))
    (B : (⟨S8x16x2048, .f32⟩ : BufTy).Contents (Elt Ideal)) (W : (⟨S2048x2048, .f32⟩ : BufTy).Contents (Elt Ideal))
    (bias : (⟨S2048, .f32⟩ : BufTy).Contents (Elt Ideal)) :
    val_main_v6 (F := Ideal) x A B W bias = Cert.Lora.lora x A B W bias := by
  funext i
  rw [val_main_v6_apply, val_main_v3_apply, val_main_v0_apply, val_main_v2_apply, val_main_v1_apply, val_main_v5_apply]
  have hproj : ∀ r : Fin 16, val_main_v4 (F := Ideal) x B (lidx_main_v5 i r) = Cert.Lora.down x B (i 0) (i 1) r := fun r => by
    rw [val_main_v4_apply]
    refine Finset.sum_congr rfl fun k _ => ?_
    rw [down_left, down_right, up_left]
    rfl
  simp only [hproj, dense_left, dense_right, up_right, bias_at]
  exact Cert.Lora.lora_eq_bias_first x A B W bias i

end Cert.ReferenceIdeal.RefValue

end
-- ==== Proof.lean ====
/-
  A linear layer shared across the batch, fused with a per-sample rank-16 correction:
      out[b,s,o] = Σ_k x[b,s,k]·W[o,k] + Σ_r (Σ_k x[b,s,k]·B[b,r,k])·A[b,o,r] + bias[o].

  The kernel tiles the rows of each batch element in blocks of 256 and, per block, forms the dense product with the
  transposed weight, the projection to rank 16, its product with the transposed up-projection, adds the two and then
  the bias; the reference contracts the same operands with einsum, adding the bias to the dense term before the
  correction. On the extended reals the narrowings to bf16 are identities, each matrix product into a zero accumulator
  is the plain sum over the contraction coordinate, and the host's transposes only rename coordinates, so both
  results are the same three sums at every index; the two orders of adding the bias agree because addition of
  extended reals is commutative and associative. No finiteness of the inputs is used.

  The kernel's frames are the generated ones; the reference's frame is its generated run with the result dropped;
  the idealization rewrote nothing, so there is nothing to preserve. For the value claim, the kernel's run names the
  output array block by block and each block is shown to be the specification restricted to it
  (Proof/KernelResult.lean over Proof/Body.lean and Proof/Products.lean); the reference's run term is read one
  operation at a time (Proof/RefValue.lean); Proof/Spec.lean states the common function and the one law.
-/
import proofs.«134310_j67774583931082_1_alg».proof.Defs
import proofs.«134310_j67774583931082_1_alg».proof.Proof.Gen.Kernel
import proofs.«134310_j67774583931082_1_alg».proof.Proof.Gen.Kernel.Skeleton
import proofs.«134310_j67774583931082_1_alg».proof.Proof.Gen.Kernel.Launch
import proofs.«134310_j67774583931082_1_alg».proof.Proof.Gen.Kernel.Points
import proofs.«134310_j67774583931082_1_alg».proof.Proof.Gen.Kernel.Frame
import proofs.«134310_j67774583931082_1_alg».proof.Proof.Gen.KernelIdeal
import proofs.«134310_j67774583931082_1_alg».proof.Proof.Gen.KernelIdeal.Skeleton
import proofs.«134310_j67774583931082_1_alg».proof.Proof.Gen.KernelIdeal.Launch
import proofs.«134310_j67774583931082_1_alg».proof.Proof.Gen.KernelIdeal.Points
import proofs.«134310_j67774583931082_1_alg».proof.Proof.Gen.KernelIdeal.Frame
import proofs.«134310_j67774583931082_1_alg».proof.Proof.Gen.ReferenceIdeal
import proofs.«134310_j67774583931082_1_alg».proof.Proof.Gen.Pre_finite_inputs
import proofs.«134310_j67774583931082_1_alg».proof.Proof.Gen.KernelIdeal.Value
import proofs.«134310_j67774583931082_1_alg».proof.Proof.Gen.ReferenceIdeal.Run
import proofs.«134310_j67774583931082_1_alg».proof.Proof.Gen.ReferenceIdeal.Read
import proofs.«134310_j67774583931082_1_alg».proof.Proof.KernelResult
import proofs.«134310_j67774583931082_1_alg».proof.Proof.RefValue
import Idealize.ShloMosaic.Adequacy
import Idealize.ShloMosaic.Init

noncomputable section

namespace Cert.Proof

open Idealize.ShloMosaic Idealize.SL.Sem Cert.Kernel

/-- The kernel as printed runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is seven host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, the kernel's output array and the reference's result are both
    the specification of those arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
